-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S200x1 : Shape := ⟨2, ![200, 1]⟩
abbrev S_ : Shape := ⟨0, ![]⟩

class Facts : Prop where
  bcast_S_S200x1 : S_.BroadcastsInDim S200x1 (![] : Fin 0 → Fin S200x1.rank)
  reducesTo_S200x1_S_d0_1 : S200x1.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S200x1 .f32) : IVec S_ 1 :=
  let main_v0 : FVec F S200x1 .f32 := Host.absf main_arg1
  let main_cst : FVec F S_ .f32 := constant S_ .f32 0x7F800000#32
  let main_v1 : FVec F S200x1 .f32 := broadcastInDim S200x1 ![] bcast_S_S200x1 main_cst
  let main_v2 : IVec S200x1 1 := cmpf .olt main_v0 main_v1
  let main_c : IVec S_ 1 := constantI S_ 1 1#1
  let main_v3 : IVec S_ 1 := (fun x v => Host.reduce IntOp.andi x v reducesTo_S200x1_S_d0_1 h_S_) main_v2 main_c
  let main_c_0 : IVec S_ 32 := constantI S_ 32 1#32
  let main_v4 : IVec S16384x200 32 := broadcastInDim S16384x200 ![] bcast_S_S16384x200 main_c_0
  let main_v5 : IVec S16384x200 1 := cmpi .sge main_arg0 main_v4
  let main_c_1 : IVec S_ 32 := constantI S_ 32 200#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S200x1 : Shape := ⟨2, ![200, 1]⟩
abbrev S1x200 : Shape := ⟨2, ![1, 200]⟩
abbrev S1024x200 : Shape := ⟨2, ![1024, 200]⟩
abbrev S1x1x200 : Shape := ⟨3, ![1, 1, 200]⟩
abbrev S16x200 : Shape := ⟨2, ![16, 200]⟩
abbrev S16x200x1 : Shape := ⟨3, ![16, 200, 1]⟩
abbrev S16x200x200 : Shape := ⟨3, ![16, 200, 200]⟩
abbrev S16384x200x1 : Shape := ⟨3, ![16384, 200, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x200, .i32⟩
  | .hbm, ⟨1, _⟩ => ⟨S200x1, .f32⟩
  | .hbm, ⟨2, _⟩ => ⟨S1x200, .f32⟩
  | .hbm, ⟨3, _⟩ => ⟨S16384x200, .f32⟩
  | .hbm, ⟨4, _⟩ => ⟨S16384x200x1, .f32⟩
  | .local _ .vmem, ⟨0, _⟩ => ⟨S1024x200, .i32⟩
  | .local _ .vmem, ⟨1, _⟩ => ⟨S1024x200, .i32⟩
  | .local _ .vmem, ⟨2, _⟩ => ⟨S1x200, .f32⟩
  | .local _ .vmem, ⟨3, _⟩ => ⟨S1024x200, .f32⟩
  | .local _ .vmem, ⟨4, _⟩ => ⟨S1024x200, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v5 : BitVec 32 := Scalar.addi c0_i32 c64_i32
  let c1_i32_1 : BitVec 32 := 1#32
  ⟨c0_i32, v5, c1_i32_1⟩
def k0_mult1 (k0_t1 : Fin k0_t1_loop.trips) : BitVec 32 :=
  let c0_i32 : BitVec 32 := 0#32
  let c1_i32_1 : BitVec 32 := 1#32
  let arg4 : BitVec 32 := Scf.iv c0_i32 c1_i32_1 k0_t1
  let c16_i32 : BitVec 32 := 16#32
  let v6 : BitVec 32 := Scalar.muli arg4 c16_i32
  v6
def k0_off1 (k0_t1 : Fin k0_t1_loop.trips) : Fin 2 → Nat :=
  let c0_i32 : BitVec 32 := 0#32
  let c1_i32_1 : BitVec 32 := 1#32
  let arg4 : BitVec 32 := Scf.iv c0_i32 c1_i32_1 k0_t1
  let c16_i32 : BitVec 32 := 16#32
  let v6 : BitVec 32 := Scalar.muli arg4 c16_i32
  let v7 : BitVec 32 := v6
  let v8 : Index := Scalar.indexCast v7
  let c0_3 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S200x1_S1x200 : S200x1.ShapeCasts S1x200
  iota_S1x1x200_d2_w32 : S1x1x200.Iotas .tc 32 [2]
  inb_S1x200_S1x200_0_0 : ∀ a, (![0, 0] : Fin 2 → Nat) a + S1x200.size a ≤ S1x200.size a
  h_S1x200 : 0 < S1x200.numel
  shapeCasts_S1x200_S1x200 : S1x200.ShapeCasts S1x200
  h_S16x200 : 0 < S16x200.numel
  shapeCasts_S16x200_S16x200x1 : S16x200.ShapeCasts S16x200x1
  broadcasts_S16x200x1_S16x200x200 : S16x200x1.Broadcasts S16x200x200
  broadcasts_S1x1x200_S16x200x200 : S1x1x200.Broadcasts S16x200x200
  natLt_1_32 : 1 < 32
  shapeCasts_S1x200_S1x1x200 : S1x200.ShapeCasts S1x1x200
  reduces_S16x200x200_S16x200 : S16x200x200.Reduces [2] S16x200
  shapeCasts_S16384x200_S16384x200x1 : S16384x200.ShapeCasts S16384x200x1
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x200.size a ≤ S1024x200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S16384x200.size a
  hwx0_0 : ∀ i : grid0.Coords, EltTy.bits .i32 = 32 ∨ (Rect.block (s := S16384x200) S1024x200.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x200.size a ≤ S1x200.size a
  hwx0_1 : ∀ i : grid0.Coords, EltTy.bits .f32 = 32 ∨ (Rect.block (s := S1x200) S1x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x200.size a ≤ S16384x200.size a
  hwx0_2 : ∀ i : grid0.Coords, EltTy.bits .f32 = 32 ∨ (Rect.block (s := S16384x200) S1024x200.size (cc0_transform_2 i) (hinb0_2 i)).WholeWords (EltTy.packing .f32)

variable [Facts₀]

abbrev win0_0 : Pipeline.Window sig grid0 :=
  Pipeline.Window.ofSpec (Memref.whole main_arg0) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x200 : Shape := ⟨2, ![16384, 200]⟩
abbrev S200x1 : Shape := ⟨2, ![200, 1]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S200x1, .f32⟩
  | .hbm, ⟨2, _⟩ => ⟨S_, .i32⟩
  | .hbm, ⟨3, _⟩ => ⟨S16384x200, .i32⟩
  | .hbm, ⟨4, _⟩ => ⟨S16384x200, .i32⟩
  | .hbm, ⟨5, _⟩ => ⟨S_, .i32⟩
  | .hbm, ⟨6, _⟩ => ⟨S16384x200, .i32⟩
  | .hbm, ⟨7, _⟩ => ⟨S16384x200, .i1⟩
  | .hbm, ⟨8, _⟩ => ⟨S_, .i32⟩
  | .hbm, ⟨9, _⟩ => ⟨S16384x200, .i32⟩
  | .hbm, ⟨10, _⟩ => ⟨S16384x200, .i32⟩
  | .hbm, ⟨11, _⟩ => ⟨S16384x200, .i32⟩
  | .hbm, ⟨12, _⟩ => ⟨S16384x200x1, .i32⟩
  | .hbm, ⟨13, _⟩ => ⟨S1, .i32⟩
  | .hbm, ⟨14, _⟩ => ⟨S_, .i32⟩
  | .hbm, ⟨15, _⟩ => ⟨S16384x200x1, .i32⟩
  | .hbm, ⟨16, _⟩ => ⟨S16384x200x1, .i1⟩
  | .hbm, ⟨17, _⟩ => ⟨S1x1x1, .i32⟩
  | .hbm, ⟨18, _⟩ => ⟨S16384x200x1, .i32⟩
  | .hbm, ⟨19, _⟩ => ⟨S16384x200x1, .i1⟩
  | .hbm, ⟨20, _⟩ => ⟨S16384x200x1, .i1⟩
  | .hbm, ⟨21, _⟩ => ⟨S_, .i1⟩
  | .hbm, ⟨22, _⟩ => ⟨S16384x200, .i1⟩
  | .hbm, ⟨23, _⟩ => ⟨S16384x200x1, .f32⟩
  | .hbm, ⟨24, _⟩ => ⟨S16384x200x1, .i1⟩
  | .hbm, ⟨25, _⟩ => ⟨S_, .f32⟩
  | .hbm, ⟨26, _⟩ => ⟨S16384x200x1, .f32⟩
  | .hbm, ⟨27, _⟩ => ⟨S16384x200x1, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  gather_S200x1_S16384x200x1_S16384x200x1_2_0_n_n_0_2_11_wf : GatherDims.WF S200x1 S16384x200x1 S16384x200x1 [2] [0] [] [0] [] 2 ![1, 1]

variable [Facts₀]

def gather_S200x1_S16384x200x1_S16384x200x1_2_0_n_n_0_2_11 : GatherDims S200x1 S16384x200x1 S16384x200x1 where
  offsetDims := [2]
  collapsedSliceDims := [0]
  operandBatchingDims := []
  startIndicesBatchingDims := []
  startIndexMap := [0]
  indexVectorDim := 2
  sliceSizes := ![1, 1]
  wf := gather_S200x1_S16384x200x1_S16384x200x1_2_0_n_n_0_2_11_wf

class Facts : Prop extends Facts₀ where

variable [Facts]
-- ==== Proof.PreRange.lean ====
/-
  The precondition read back. It is one bit: every entry of the weight table is finite, and every entry of the index
  array lies in `[1, 200]`. Used here is the second half only: for each position the index word, read signed, is at
  least 1 and at most 200.
-/
import proofs.«428532_j28690381537578_2_alg».proof.Pre_finite_inputs
import proofs.«428532_j28690381537578_2_alg».proof.Proof.Gen.Pre_finite_inputs
import Idealize.ShloMosaic.Lib.ReduceAll
import Idealize.ShloMosaic.Lib.ValueIdx

namespace Cert.PreRange

open Idealize.ShloMosaic Idealize.ShloMosaic.ValueIdx Cert.Pre_finite_inputs

instance : Subsingleton S_.Idx := ⟨fun a b => funext fun d => d.elim0⟩

/-- Under the precondition every index word is in `[1, 200]` as a signed integer. -/
theorem toInt_range {F : FTy → Type} [FloatOps F] (x : IVec S16384x200 32) (w : FVec F S200x1 .f32)
    (h : Cert.Pre_finite_inputs.fn (F := F) x w = fun _ => 1#1) (i : S16384x200.Idx) :
    1 ≤ (x i).toInt ∧ (x i).toInt ≤ 200 := by
  have h0 := congrFun h ix0
  dsimp only [Cert.Pre_finite_inputs.fn] at h0
  obtain ⟨-, h9⟩ := IntOp.andi_eq_one.1 h0
  have h8 := Host.reduce_andi_all _ _ _ _ _ h9 i
  obtain ⟨h5, h7⟩ := IntOp.andi_eq_one.1 h8
  have e5 := IntOp.cmpi_sge.1 h5
  have e7 := IntOp.cmpi_sle.1 h7
  exact ⟨e5, e7⟩

/-- So, read unsigned, it is in `[1, 200]` too. -/
theorem toNat_range {F : FTy → Type} [FloatOps F] (x : IVec S16384x200 32) (w : FVec F S200x1 .f32)
    (h : Cert.Pre_finite_inputs.fn (F := F) x w = fun _ => 1#1) (i : S16384x200.Idx) :
    1 ≤ (x i).toNat ∧ (x i).toNat ≤ 200 := by
  obtain ⟨h1, h2⟩ := toInt_range x w h i
  have hx : (x i).toInt = ((x i).toNat : Int) := by
    rw [BitVec.toInt_eq_toNat_cond] at h1 h2 ⊢
    split <;> omega
  omega

end Cert.PreRange
-- ==== Proof.Pay.lean ====
/-
  The kernel body's one payload, read at an index. For a chunk of sixteen rows of indices `v9` and the weight row `v3`
  the body stores, at row `p` and column `q`, the sum over the 200 classes `k` of the indicator "the index equals
  `k + 1`" (a bit, widened and converted: exactly 0 or 1) times `v3[0, k]`. When the index lies in `[1, 200]` exactly
  one class matches, the other terms are `0 · v3[0, k] = 0` on the extended reals whatever `v3` holds, and the sum is
  `v3[0, index - 1]`.
-/
import proofs.«428532_j28690381537578_2_alg».proof.Proof.Gen.KernelIdeal.Skeleton
import Idealize.ShloMosaic.Lib.ValueIdx
import Idealize.ShloMosaic.Lib.Pipeline.Value
import Idealize.ShloMosaic.Lib.Affine
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable {α : Type}

/-- The chunk with a trailing unit axis reads the chunk. -/
theorem cast_chunk (v9 : S16x200.Idx → α) (p : Fin 16) (q : Fin 200) :
    shapeCast S16x200x1 v9 shapeCasts_S16x200_S16x200x1 (ix3 p q (0 : Fin 1)) = v9 (ix2 p q) :=
  shapeCast_apply _ _ (ix3 p q (0 : Fin 1)) (ix2 p q) (by
    rw [Shape.rowMajor_val_two, Shape.rowMajor_val_three]
    show p.val * 200 + q.val = (p.val * 200 + q.val) * 1 + 0
    omega)

/-- Broadcast along the class axis: every class reads the chunk's entry. -/
theorem bcast_chunk (v10 : S16x200x1.Idx → α) (p : Fin 16) (q : Fin 200) (k : Fin 200) :
    broadcastTo S16x200x200 v10 broadcasts_S16x200x1_S16x200x200 (ix3 p q k) = v10 (ix3 p q (0 : Fin 1)) :=
  broadcastTo_apply _ _ (ix3 p q k) (ix3 p q (0 : Fin 1))
    (fun a => match a with | ⟨0, _⟩ => rfl | ⟨1, _⟩ => rfl | ⟨2, _⟩ => rfl)

/-- Broadcast over rows and columns: every position reads the class's entry. -/
theorem bcast_class (v : S1x1x200.Idx → α) (p : Fin 16) (q : Fin 200) (k : Fin 200) :
    broadcastTo S16x200x200 v broadcasts_S1x1x200_S16x200x200 (ix3 p q k) = v (ix3 (0 : Fin 1) (0 : Fin 1) k) :=
  broadcastTo_apply _ _ (ix3 p q k) (ix3 (0 : Fin 1) (0 : Fin 1) k)
    (fun a => match a with | ⟨0, _⟩ => rfl | ⟨1, _⟩ => rfl | ⟨2, _⟩ => rfl)

/-- The weight row with two leading unit axes reads the row. -/
theorem cast_row (v3 : S1x200.Idx → α) (k : Fin 200) :
    shapeCast S1x1x200 (shapeCast S1x200 v3 shapeCasts_S1x200_S1x200) shapeCasts_S1x200_S1x1x200
      (ix3 (0 : Fin 1) (0 : Fin 1) k) = v3 (ix2 (0 : Fin 1) k) := by
  rw [shapeCast_self]
  exact shapeCast_apply _ _ (ix3 (0 : Fin 1) (0 : Fin 1) k) (ix2 (0 : Fin 1) k) (by
    rw [Shape.rowMajor_val_two, Shape.rowMajor_val_three]
    show 0 * 200 + k.val = (0 * 1 + 0) * 200 + k.val
    omega)

/-- The classes, one-based: class `k` is the word `k + 1`. -/
theorem classes_apply (k : Fin 200) :
    addi (iota .tc S1x1x200 32 [2] iota_S1x1x200_d2_w32) (broadcast S1x1x200 1#32) (ix3 (0 : Fin 1) (0 : Fin 1) k)
      = BitVec.ofNat 32 k.val + 1#32 := by
  show iota .tc S1x1x200 32 [2] iota_S1x1x200_d2_w32 (ix3 (0 : Fin 1) (0 : Fin 1) k) + 1#32 = _
  rw [iota_single_apply]

/-- The reduced index `(p, q)` with the class `k` inserted on the reduced axis. -/
theorem lift_eq (p : Fin 16) (q : Fin 200) (k : Fin 200) :
    reduces_S16x200x200_S16x200.lift (ix2 p q) k = ix3 p q k := by
  funext a
  refine Fin.ext ?_
  match a with
  | ⟨0, _⟩ => rfl
  | ⟨1, _⟩ => rfl
  | ⟨2, _⟩ => rfl

/-- The indicator's value: the comparison bit widened to a word and converted, as an extended real. -/
def ind (b c : BitVec 32) : EReal := ((((IntOp.cmpi .eq b c).setWidth 32).toInt : ℝ) : EReal)

theorem ind_self (b : BitVec 32) : ind b b = 1 := by
  unfold ind
  rw [IntOp.cmpi_eq.2 rfl]
  simp

theorem ind_ne {b c : BitVec 32} (h : b ≠ c) : ind b c = 0 := by
  unfold ind
  rw [eq_zero_of_ne_one (fun e => h (IntOp.cmpi_eq.1 e))]
  simp

/-- THE PAYLOAD AT `(p, q)`: the sum over the classes of indicator times weight. -/
theorem pay_sum (v3 : FVec Ideal S1x200 .f32) (v9 : IVec S16x200 32) (p : Fin 16) (q : Fin 200) :
    k0_pay1 (F := Ideal) v3 v9 (ix2 p q)
      = ∑ k : Fin 200, ind (v9 (ix2 p q)) (BitVec.ofNat 32 k.val + 1#32) * v3 (ix2 (0 : Fin 1) k) := by
  unfold k0_pay1
  dsimp only
  refine (Ideal.multiReduction_add_single _ 0x00000000#32 reduces_S16x200x200_S16x200 (.inl rfl) rfl (ix2 p q)).trans ?_
  refine Finset.sum_congr rfl fun (k : Fin 200) _ => ?_
  refine (congrArg (fun j => mulf _ _ j) (lift_eq p q k)).trans ?_
  show FloatOps.sitofp (F := Ideal) .f32
        ((IntOp.cmpi .eq
          (broadcastTo S16x200x200 (shapeCast S16x200x1 v9 shapeCasts_S16x200_S16x200x1) broadcasts_S16x200x1_S16x200x200 (ix3 p q k))
          (broadcastTo S16x200x200 (addi (iota .tc S1x1x200 32 [2] iota_S1x1x200_d2_w32) (broadcast S1x1x200 1#32))
            broadcasts_S1x1x200_S16x200x200 (ix3 p q k))).setWidth 32)
      * broadcastTo S16x200x200 (shapeCast S1x1x200 (shapeCast S1x200 v3 shapeCasts_S1x200_S1x200) shapeCasts_S1x200_S1x1x200)
          broadcasts_S1x1x200_S16x200x200 (ix3 p q k) = _
  rw [bcast_chunk, cast_chunk, bcast_class, classes_apply, bcast_class, cast_row]
  rfl

/-- The class an index word names: `index - 1`, kept inside the table's 200 rows. -/
def clip (b : BitVec 32) : Fin 200 := ⟨min (b.toNat - 1) 199, by omega⟩

/-- With the index in `[1, 200]` the sum is the weight at class `index - 1`. -/
theorem pay_apply (v3 : FVec Ideal S1x200 .f32) (v9 : IVec S16x200 32) (p : Fin 16) (q : Fin 200)
    (h : 1 ≤ (v9 (ix2 p q)).toNat ∧ (v9 (ix2 p q)).toNat ≤ 200) :
    k0_pay1 (F := Ideal) v3 v9 (ix2 p q) = v3 (ix2 (0 : Fin 1) (clip (v9 (ix2 p q)))) := by
  rw [pay_sum]
  obtain ⟨h1, h2⟩ := h
  have hc : (clip (v9 (ix2 p q))).val = (v9 (ix2 p q)).toNat - 1 := by
    show min ((v9 (ix2 p q)).toNat - 1) 199 = _
    omega
  have key : ∀ k : Fin 200, BitVec.ofNat 32 k.val + 1#32 = v9 (ix2 p q) ↔ k.val = (v9 (ix2 p q)).toNat - 1 := by
    intro k
    have hk := k.isLt
    rw [← BitVec.toNat_inj, BitVec.toNat_add, BitVec.toNat_ofNat]
    show (k.val % 2 ^ 32 + 1) % 2 ^ 32 = _ ↔ _
    rw [Nat.mod_eq_of_lt (by omega : k.val < 2 ^ 32), Nat.mod_eq_of_lt (by omega : k.val + 1 < 2 ^ 32)]
    omega
  rw [Finset.sum_eq_single (clip (v9 (ix2 p q)))]
  · rw [((key _).2 hc), ind_self, one_mul]
  · intro k _ hk
    rw [ind_ne (fun e => hk (Fin.ext (((key k).1 e.symm).trans hc.symm))), zero_mul]
  · intro hn
    exact absurd (Finset.mem_univ _) hn

end Cert.KernelIdeal.Pay

end
-- ==== Proof.KVal.lean ====
/-
  The idealized kernel's result, read off its frame run.
  At grid point `t` the body sees rows `1024·t … 1024·t + 1023` of the index array and the whole weight row. Its loop
  stores, sixteen rows at a time, the payload of those rows; the sixty-four stores tile the block, and every one is the
  same function of the block's position: the weight at class `index - 1`. So the block the point writes back is that
  function of the block, the blocks tile the region's result array, and the array ends as `w[0, x[i] - 1]` at every
  position `i`. The reshape before the region makes the weight row `w[0, k] = W[k, 0]`, and the reshape after it gives
  the result its trailing unit axis.
-/
import proofs.«428532_j28690381537578_2_alg».proof.Proof.Gen.KernelIdeal.Frame
import proofs.«428532_j28690381537578_2_alg».proof.Proof.Pay
import Idealize.ShloMosaic.Lib.Pipeline.Value
import Idealize.ShloMosaic.Lib.StableHlo.Run
import Idealize.ShloMosaic.Lib.Writes
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Pay Idealize.ShloMosaic.ValueIdx

/-- An index word that names a class: in `[1, 200]`. -/
abbrev InRange (b : BitVec 32) : Prop := 1 ≤ b.toNat ∧ b.toNat ≤ 200

theorem hz2 : (![0, 0] : Fin 2 → Nat) = fun _ => 0 := funext fun a => by fin_cases a <;> rfl

/-! ## One block -/

/-- What the body leaves at each position of its output block: the weight at the class the position's index names. -/
def blockVal (x0 : IVec S1024x200 32) (x1 : FVec Ideal S1x200 .f32) : FVec Ideal S1024x200 .f32 :=
  fun y => x1 (ix2 (0 : Fin 1) (clip (x0 y)))

/-- One trip of the loop stores one piece: at the trip's sixteen rows, the payload of the rows loaded there. -/
theorem tripL_eq (𝒱 : Variants) (c : Dev nD) (bd : Option 𝒱.V) (i : grid0.Coords)
    (arg1 : Memref sig .tc .vmem S1024x200 .i32) (harg1 : arg1.IsWhole) (arg2 : Memref sig .tc .vmem S1x200 .f32) (harg2 : arg2.IsWhole)
    (arg3 : Memref sig .tc .vmem S1024x200 .f32) (harg3 : arg3.IsWhole) (v3 : Vec Ideal S1x200 .f32)
    (X : BufTy.Contents (Elt Ideal) arg1.view.ty) (k : Fin k0_t1_loop.trips) :
    tripL_k0_t1 (F := Ideal) 𝒱 c bd i arg1 harg1 arg2 harg2 arg3 harg3 v3 X k
      = [⟨Rect.unit (s := S1024x200) (k0_off1 k) S16x200.size (k0_off1_inb k),
          k0_pay1 v3 (View.readAt (Elt Ideal) arg1.view (Rect.unit (s := S1024x200) (k0_off1 k) S16x200.size (k0_off1_inb k)).toLoadRect X)⟩] := by
  unfold tripL_k0_t1 trip_k0_t1
  rfl

/-- Every piece the loop has stored after `n` trips is `blockVal` on its rectangle. -/
theorem pieces_pb (c : Dev nD) (i : grid0.Coords)
    (arg1 : Memref sig .tc .vmem S1024x200 .i32) (harg1 : arg1.IsWhole) (arg2 : Memref sig .tc .vmem S1x200 .f32) (harg2 : arg2.IsWhole)
    (arg3 : Memref sig .tc .vmem S1024x200 .f32) (harg3 : arg3.IsWhole) (v3 : FVec Ideal S1x200 .f32)
    (X : BufTy.Contents (Elt Ideal) arg1.view.ty)
    (hX : ∀ y, InRange (arg1.view.read (Elt Ideal) X y)) :
    ∀ (n : ℕ), ∀ p ∈ pb_k0_t1 (F := Ideal) Variants.none c none i arg1 harg1 arg2 harg2 arg3 harg3 v3 X n,
      ∀ x : p.1.shape.Idx, p.2 x = blockVal (arg1.view.read (Elt Ideal) X) v3 (p.1.emb x)
  | 0 => fun p hp => absurd hp (by rw [pb_k0_t1.eq_1]; exact List.not_mem_nil)
  | n + 1 => by
    intro p hp
    rw [pb_k0_t1.eq_2] at hp
    unfold pb_k0_t1Step at hp
    split at hp
    · rename_i h
      rcases List.mem_append.1 hp with hp | hp
      · rw [tripL_eq] at hp
        obtain rfl := List.mem_singleton.1 hp
        intro x
        obtain ⟨a, b, rfl⟩ : ∃ (a : Fin 16) (b : Fin 200), x = ix2 a b := ⟨x 0, x 1, eq_ix2 x⟩
        exact pay_apply v3 _ a b (hX _)
      · exact pieces_pb c i arg1 harg1 arg2 harg2 arg3 harg3 v3 X hX n p hp
    · exact pieces_pb c i arg1 harg1 arg2 harg2 arg3 harg3 v3 X hX n p hp

/-- THE BLOCK: on whole staging buffers holding the index block `x0` (every entry a class) and the weight row `x1`, the
    body leaves `blockVal x0 x1` in the output's buffer. -/
theorem out_eq (c : Dev nD) (i : grid0.Coords)
    (arg1 : Memref sig .tc .vmem S1024x200 .i32) (harg1 : arg1.IsWhole) (arg2 : Memref sig .tc .vmem S1x200 .f32) (harg2 : arg2.IsWhole)
    (arg3 : Memref sig .tc .vmem S1024x200 .f32) (harg3 : arg3.IsWhole)
    (x0 : IVec S1024x200 32) (x1 : FVec Ideal S1x200 .f32) (hx : ∀ y, InRange (x0 y)) :
    out0_A_2 (F := Ideal) c i arg1 harg1 arg2 harg2 arg3 harg3 x0 x1 = blockVal x0 x1 := by
  funext y
  unfold out0_A_2
  have hL : (kernelRun0_A (F := Ideal) c i arg1 harg1 arg2 harg2 arg3 harg3 x0 x1).1
      = pb_k0_t1 (F := Ideal) Variants.none c none i arg1 harg1 arg2 harg2 arg3 harg3
          (View.readAt (Elt Ideal) arg2.view (Rect.unit (s := S1x200) ![0, 0] S1x200.size inb_S1x200_S1x200_0_0).toLoadRect (harg2.unread x1))
          (harg1.unread x0) k0_t1_loop.trips := by
    unfold kernelRun0_A
    rfl
  have hv3 : View.readAt (Elt Ideal) arg2.view (Rect.unit (s := S1x200) ![0, 0] S1x200.size inb_S1x200_S1x200_0_0).toLoadRect (harg2.unread x1) = x1 := by
    rw [View.readAt_eq_ld, harg2.read_unread, View.ld_unit_zero (S := S1x200) hz2]
  have hp := pieces_pb c i arg1 harg1 arg2 harg2 arg3 harg3 x1 (harg1.unread x0)
    (by rw [harg1.read_unread]; exact hx) k0_t1_loop.trips
  rw [harg1.read_unread] at hp
  refine View.read_writes_apply_of_pieces _ _ (blockVal x0 x1) _ ?_ y
    (cover0_A_2 (F := Ideal) c i arg1 harg1 arg2 harg2 arg3 harg3 x0 x1 y)
  rw [hL, hv3]
  exact hp

end Cert.KernelIdeal.KVal

end
-- ==== Proof.KArr.lean ====
/-
  From blocks to the array, and through the two reshapes around the region.
  Point `t`'s index block is rows `1024·t …` of the index array, its weight block the whole weight row, and the block
  it writes back rows `1024·t …` of the region's result: so what it writes back is the restriction of ONE function of
  the two arrays, `(r, s) ↦ w[0, x[r, s] - 1]`, and the sixteen blocks tile the result. Before the region the weight
  table `[200, 1]` is reshaped to the row `[1, 200]`; after it the result `[16384, 200]` gets a trailing unit axis.
-/
import proofs.«428532_j28690381537578_2_alg».proof.Proof.KVal

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Pay Idealize.ShloMosaic.ValueIdx

variable (m : (ℓ : Loc nD τ sig) → Buf (Elt Ideal) ℓ) (ρ : Dev nD → PrngReg)

/-- The region's result array as one function of the index array and the weight row. -/
def arrVal (x : IVec S16384x200 32) (w : FVec Ideal S1x200 .f32) : FVec Ideal S16384x200 .f32 :=
  fun i => w (ix2 (0 : Fin 1) (clip (x i)))

/-- The printed index maps over the grid: the index window and the output window are at block row `t`, column 0;
    the weight window does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Position `j` of block `t`, in the array: row `1024·t + j₀`, column `j₁`. -/
def rowOf (t : Fin cfg0.N) (j : S1024x200.Idx) : S16384x200.Idx :=
  ix2 (⟨t.val * 1024 + (j 0).val, by
      have ht : t.val < 16 := Nat.lt_of_lt_of_le t.isLt (Nat.le_of_eq N_0)
      have hj : (j 0).val < 1024 := (j 0).isLt
      omega⟩ : Fin 16384) (⟨(j 1).val, (j 1).isLt⟩ : Fin 200)

/-- The index block at point `t` reads the index array at the block's rows. -/
theorem xblk_apply (c : Dev nD) (t : Fin cfg0.N) (j : S1024x200.Idx) :
    (iblk m c 0 t : IVec S1024x200 32) j = V m c main_arg0 (rowOf t j) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * (j 0).val = t.val * 1024 + (j 0).val; rw [e0]; omega
  | ⟨1, _⟩ => show win0_0.index t (1 : Fin 2) * 200 + 1 * (j 1).val = (j 1).val; rw [e1]; omega

/-- The weight block at every point is the whole weight row. -/
theorem wblk_apply (c : Dev nD) (t : Fin cfg0.N) (y : S1x200.Idx) :
    (iblk m c 1 t : FVec Ideal S1x200 .f32) y = V m c main_v0 y := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 200 + 1 * (y 1).val = (y 1).val; rw [e1]; omega

/-- An array of the result's shape read through the output block at point `t` reads the block's rows. -/
theorem oblk_apply (t : Fin cfg0.N) (G : FVec Ideal S16384x200 .f32) (j : S1024x200.Idx) :
    ((cfg0.win 2).blk t).view.read (Elt Ideal) G j = G (rowOf t j) := by
  obtain ⟨-, -, -, -, e0, e1⟩ := idx_facts t
  rw [View.read_apply]
  show G _ = G _
  congr 1
  funext a
  apply Fin.ext
  match a with
  | ⟨0, _⟩ => show win0_2.index t (0 : Fin 2) * 1024 + 1 * (j 0).val = t.val * 1024 + (j 0).val; rw [e0]; omega
  | ⟨1, _⟩ => show win0_2.index t (1 : Fin 2) * 200 + 1 * (j 1).val = (j 1).val; rw [e1]; omega

/-- WHAT POINT `t` WRITES BACK is block `t` of `arrVal` of the arrays as the region finds them, when every index names
    a class. -/
theorem flushed_eq (c : Dev nD) (hx : ∀ i, InRange (V m c main_arg0 i)) (t : Fin cfg0.N) :
    (dats m 0 c).flushed 2 t = ((cfg0.win 2).blk t).view.read (Elt Ideal) (arrVal (V m c main_arg0) (V m c main_v0)) := by
  show (cfg0.win 2).cut (grid0.coords t) ((dats m 0 c).after 2 t) = _
  rw [after0_2]
  unfold outsAt0
  rw [out_eq c (grid0.coords t) (ms0_0 t) (hs0_0 t) (ms0_1 t) (hs0_1 t) (ms0_2 t) (hs0_2 t) (iblk m c 0 t) (iblk m c 1 t)
    (fun y => by rw [xblk_apply]; exact hx _)]
  funext j
  rw [oblk_apply]
  show (iblk m c 1 t : FVec Ideal S1x200 .f32) (ix2 (0 : Fin 1) (clip ((iblk m c 0 t : IVec S1024x200 32) j))) = _
  rw [wblk_apply, xblk_apply]
  rfl

/-- An index of the result array is in point `t`'s block iff each coordinate is in the block's range on its axis. -/
theorem mem_blk (t : Fin cfg0.N) (i : S16384x200.Idx) :
    i ∈ ((cfg0.win 2).blk t).view.set ↔ ∀ a : Fin 2, win0_2.index t a * S1024x200.size a ≤ (i a).val ∧ (i a).val < win0_2.index t a * S1024x200.size a + S1024x200.size a := by
  show i ∈ ((View.whole main_v1).slice (win0_2.rect t)).set ↔ _
  rw [View.set_slice_whole, Rect.mem_set_unit]
  exact Iff.rfl

/-- THE REGION'S RESULT ARRAY after the run: `arrVal` of the arrays as the region finds them (row `r` is in the block of
    point `r / 1024`). -/
theorem final (c : Dev nD) (hx : ∀ i, InRange (V m c main_arg0 i)) :
    (dats m 0 c).arrAt 2 cfg0.N = arrVal (V m c main_arg0) (V m c main_v0) :=
  (dats m 0 c).arrAt_eq_of_cover 2 (arrVal (V m c main_arg0) (V m c main_v0)) (fun t _ => flushed_eq m c hx t) fun i => by
    have hi0 : (i 0).val < 16384 := (i 0).isLt
    have hi1 : (i 1).val < 200 := (i 1).isLt
    have hN : cfg0.N = 16 := N_0
    refine ⟨⟨(i 0).val / 1024, by rw [hN]; omega⟩, flush0_2 _, ?_⟩
    obtain ⟨-, -, -, -, e0, e1⟩ := idx_facts ⟨(i 0).val / 1024, by rw [hN]; omega⟩
    rw [mem_blk]
    intro a
    match a with
    | ⟨0, _⟩ =>
      show win0_2.index _ (0 : Fin 2) * 1024 ≤ (i 0).val ∧ (i 0).val < win0_2.index _ (0 : Fin 2) * 1024 + 1024
      rw [e0]; dsimp only; omega
    | ⟨1, _⟩ =>
      show win0_2.index _ (1 : Fin 2) * 200 ≤ (i 1).val ∧ (i 1).val < win0_2.index _ (1 : Fin 2) * 200 + 200
      rw [e1]; omega

/-- The weight row the region finds: the weight table reshaped. -/
theorem V_main_v0 (c : Dev nD) :
    (V m c main_v0 : FVec Ideal S1x200 .f32) = shapeCast S1x200 (m ((c : Thread nD τ).loc main_arg1)) shapeCasts_S200x1_S1x200 := by
  show StableHlo.after hostOps0 (fun b => m (c, b)) (Proc.devRef .tc main_v0) = _
  after_results
  rfl

/-- The kernel program's result as one function of its two arguments. -/
def out (x : IVec S16384x200 32) (w : FVec Ideal S200x1 .f32) : FVec Ideal S16384x200x1 .f32 :=
  shapeCast S16384x200x1 (arrVal x (shapeCast S1x200 w shapeCasts_S200x1_S1x200)) shapeCasts_S16384x200_S16384x200x1

/-- After the region, the reshape of the region's result. -/
theorem tail_eq (c : Dev nD) (hx : ∀ i, InRange (m ((c : Thread nD τ).loc main_arg0) i)) :
    Pipeline.afterTail₀ cfgs (dats m) 0 (V0 m) [hostOps1] c main_v2
      = out (m ((c : Thread nD τ).loc main_arg0)) (m ((c : Thread nD τ).loc main_arg1)) := by
  have hx' : ∀ i, InRange (V m c main_arg0 i) := by rw [V_main_arg0]; exact hx
  unfold Pipeline.afterTail₀
  show StableHlo.after hostOps1 _ (Proc.devRef .tc main_v2) = _
  after_results
  rw [(Pipeline.withArrays_arr spec0 launch0.win.arr_inj c _ _ 2).trans (final m c hx'), V_main_arg0, V_main_v0]
  rfl

/-- THE RUN, READ: under the precondition's index range, every weakly fair execution of the idealized kernel program
    terminates with its result at `out` of the arguments and the arguments unchanged. -/
theorem run (hx : ∀ (c : Dev nD) i, InRange (m ((c : Thread nD τ).loc main_arg0) i)) :
    θ_run defs (onTc (τ := τ) (main (F := Ideal))) ⟨m, fun _ => 0, ρ⟩ fun r => ∀ c : Dev nD,
      r.2.mem ((c.tc : Thread nD τ).loc main_v2) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c (hx c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KVal

end
-- ==== Proof.RefRun.lean ====
/-
  The reference program's run, read back. Its @main is a straight line of twenty-eight host operations once the two
  outlined functions (the take, and the select inside it) are unfolded at their calls: the index array `inputs - 1`,
  the wrap of negative indices by the table's length, the in-range test of the wrapped index, the gather of the table's
  rows at the wrapped index, and the select between the gathered row and the fill value. Every weakly fair execution
  terminates with the result buffer at that composed term of the two argument arrays, the arguments unchanged.
-/
import proofs.«428532_j28690381537578_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index array as the take uses it: `x - 1`, and where that is negative, `x - 1 + 200`. -/
def wrapped (x : IVec S16384x200 32) : IVec S16384x200 32 :=
  select (cmpi .slt (subi x (broadcastInDim S16384x200 ![] bcast_S_S16384x200 (constantI S_ 32 1#32)))
      (broadcastInDim S16384x200 ![] bcast_S_S16384x200 (constantI S_ 32 0#32)))
    (addi (subi x (broadcastInDim S16384x200 ![] bcast_S_S16384x200 (constantI S_ 32 1#32)))
      (broadcastInDim S16384x200 ![] bcast_S_S16384x200 (constantI S_ 32 200#32)))
    (subi x (broadcastInDim S16384x200 ![] bcast_S_S16384x200 (constantI S_ 32 1#32)))

/-- The wrapped index with a trailing unit axis: the gather's start indices. -/
def starts (x : IVec S16384x200 32) : IVec S16384x200x1 32 :=
  broadcastInDim S16384x200x1 ![0, 1] bcast_S16384x200_S16384x200x1_0_1 (wrapped x)

/-- Where the wrapped index lies in `[0, 199]`. -/
def inRange (x : IVec S16384x200 32) : IVec S16384x200 1 :=
  Host.reduce IntOp.andi
    (andi (cmpi .sge (starts x) (broadcastInDim S16384x200x1 ![] bcast_S_S16384x200x1 (constantI S_ 32 0#32)))
      (cmpi .sle (starts x) (broadcastInDim S16384x200x1 ![0, 1, 2] bcast_S1x1x1_S16384x200x1_0_1_2
        (broadcastInDim S1x1x1 ![2] bcast_S1_S1x1x1_2 (constantI S1 32 199#32)))))
    (constantI S_ 1 1#1) reducesTo_S16384x200x1_S16384x200_d2 h_S_

/-- The reference's result as one term of its arguments: the table's row at the wrapped index where that is in range,
    the fill value elsewhere. -/
def out (x : IVec S16384x200 32) (w : FVec F S200x1 .f32) : FVec F S16384x200x1 .f32 :=
  select (broadcastInDim S16384x200x1 ![0, 1] bcast_S16384x200_S16384x200x1_0_1 (inRange x))
    (Host.gather gather_S200x1_S16384x200x1_S16384x200x1_2_0_n_n_0_2_11 w (starts x))
    (broadcastInDim S16384x200x1 ![] bcast_S_S16384x200x1 (constant S_ .f32 0x7FC00000#32))

/-- @main's operations in order, the take and its select unfolded at their calls. -/
abbrev ops : List (HloOp τ sig (Elt F)) :=
  [ nullary main_c (constantI S_ 32 1#32),
    unary main_c main_v0 (broadcastInDim S16384x200 ![] bcast_S_S16384x200 : (⟨S_, .i32⟩ : BufTy).Contents (Elt F) → (⟨S16384x200, .i32⟩ : BufTy).Contents (Elt F)),
    binary main_arg0 main_v0 main_v1 (subi : (⟨S16384x200, .i32⟩ : BufTy).Contents (Elt F) → (⟨S16384x200, .i32⟩ : BufTy).Contents (Elt F) → (⟨S16384x200, .i32⟩ : BufTy).Contents (Elt F)),
    nullary main_call0_c (constantI S_ 32 0#32),
    unary main_call0_c main_call0_v0 (broadcastInDim S16384x200 ![] bcast_S_S16384x200 : (⟨S_, .i32⟩ : BufTy).Contents (Elt F) → (⟨S16384x200, .i32⟩ : BufTy).Contents (Elt F)),
    binary main_v1 main_call0_v0 main_call0_v1 (cmpi .slt : (⟨S16384x200, .i32⟩ : BufTy).Contents (Elt F) → (⟨S16384x200, .i32⟩ : BufTy).Contents (Elt F) → (⟨S16384x200, .i1⟩ : BufTy).Contents (Elt F)),
    nullary main_call0_c_0 (constantI S_ 32 200#32),
    unary main_call0_c_0 main_call0_v2 (broadcastInDim S16384x200 ![] bcast_S_S16384x200 : (⟨S_, .i32⟩ : BufTy).Contents (Elt F) → (⟨S16384x200, .i32⟩ : BufTy).Contents (Elt F)),
    binary main_v1 main_call0_v2 main_call0_v3 (addi : (⟨S16384x200, .i32⟩ : BufTy).Contents (Elt F) → (⟨S16384x200, .i32⟩ : BufTy).Contents (Elt F) → (⟨S16384x200, .i32⟩ : BufTy).Contents (Elt F)),
    ternary main_call0_v1 main_call0_v3 main_v1 main_call0_v4 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F)),
    unary main_call0_v4 main_call0_v5 (broadcastInDim S16384x200x1 ![0, 1] bcast_S16384x200_S16384x200x1_0_1 : (⟨S16384x200, .i32⟩ : BufTy).Contents (Elt F) → (⟨S16384x200x1, .i32⟩ : BufTy).Contents (Elt F)),
    nullary main_call0_c_1 (constantI S1 32 199#32),
    nullary main_call0_c_2 (constantI S_ 32 0#32),
    unary main_call0_c_2 main_call0_v6 (broadcastInDim S16384x200x1 ![] bcast_S_S16384x200x1 : (⟨S_, .i32⟩ : BufTy).Contents (Elt F) → (⟨S16384x200x1, .i32⟩ : BufTy).Contents (Elt F)),
    binary main_call0_v5 main_call0_v6 main_call0_v7 (cmpi .sge : (⟨S16384x200x1, .i32⟩ : BufTy).Contents (Elt F) → (⟨S16384x200x1, .i32⟩ : BufTy).Contents (Elt F) → (⟨S16384x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x200x1 ![0, 1, 2] bcast_S1x1x1_S16384x200x1_0_1_2 : (⟨S1x1x1, .i32⟩ : BufTy).Contents (Elt F) → (⟨S16384x200x1, .i32⟩ : BufTy).Contents (Elt F)),
    binary main_call0_v5 main_call0_v9 main_call0_v10 (cmpi .sle : (⟨S16384x200x1, .i32⟩ : BufTy).Contents (Elt F) → (⟨S16384x200x1, .i32⟩ : BufTy).Contents (Elt F) → (⟨S16384x200x1, .i1⟩ : BufTy).Contents (Elt F)),
    binary main_call0_v7 main_call0_v10 main_call0_v11 (andi : (⟨S16384x200x1, .i1⟩ : BufTy).Contents (Elt F) → (⟨S16384x200x1, .i1⟩ : BufTy).Contents (Elt F) → (⟨S16384x200x1, .i1⟩ : BufTy).Contents (Elt F)),
    nullary main_call0_c_3 (constantI S_ 1 1#1),
    binary main_call0_v11 main_call0_c_3 main_call0_v12 ((fun x v => Host.reduce IntOp.andi x v reducesTo_S16384x200x1_S16384x200_d2 h_S_) : (⟨S16384x200x1, .i1⟩ : BufTy).Contents (Elt F) → (⟨S_, .i1⟩ : BufTy).Contents (Elt F) → (⟨S16384x200, .i1⟩ : BufTy).Contents (Elt F)),
    binary main_arg1 main_call0_v5 main_call0_v13 ((fun x i => Host.gather gather_S200x1_S16384x200x1_S16384x200x1_2_0_n_n_0_2_11 x i) : (⟨S200x1, .f32⟩ : BufTy).Contents (Elt F) → (⟨S16384x200x1, .i32⟩ : BufTy).Contents (Elt F) → (⟨S16384x200x1, .f32⟩ : BufTy).Contents (Elt F)),
    unary main_call0_v12 main_call0_v14 (broadcastInDim S16384x200x1 ![0, 1] bcast_S16384x200_S16384x200x1_0_1 : (⟨S16384x200, .i1⟩ : BufTy).Contents (Elt F) → (⟨S16384x200x1, .i1⟩ : BufTy).Contents (Elt F)),
    nullary main_call0_cst (constant S_ .f32 0x7FC00000#32),
    unary main_call0_cst main_call0_v15 (broadcastInDim S16384x200x1 ![] bcast_S_S16384x200x1 : (⟨S_, .f32⟩ : BufTy).Contents (Elt F) → (⟨S16384x200x1, .f32⟩ : BufTy).Contents (Elt F)),
    ternary main_call0_v14 main_call0_v13 main_call0_v15 main_v2 (select : (⟨S16384x200x1, .i1⟩ : BufTy).Contents (Elt F) → (⟨S16384x200x1, .f32⟩ : BufTy).Contents (Elt F) → (⟨S16384x200x1, .f32⟩ : BufTy).Contents (Elt F) → (⟨S16384x200x1, .f32⟩ : BufTy).Contents (Elt F)) ]

set_option maxRecDepth 16384 in
set_option maxHeartbeats 2000000 in
/-- @main is that straight line: the two functions' definitions unfolded at their calls, sequencing reassociated. -/
theorem main_eq (c : Dev nD) : main (F := F) c = seq ops := by
  simp only [main, fn_take.body, fn_where.body, seq, bind_assoc, pure_bind]
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

attribute [local irreducible] Host.reduce Host.gather in
set_option maxRecDepth 16384 in
/-- The line's fold at the result buffer is `out` of the contents at the two arguments. -/
theorem out_eq (V : Valuation τ sig (Elt F)) :
    after ops V (main_v2 : DevRef τ sig) = out (V (main_arg0 : DevRef τ sig)) (V (main_arg1 : DevRef τ sig)) := by
  unfold out inRange starts wrapped
  after_results

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, from any memory with zero counters: every weakly fair execution of @main terminates with the
    result at `out` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibGatherRows.lean ====
import Idealize.ShloMosaic.Lib.ValueIdx

/-!
# A gather of whole rows, read at an index

What `x[idx]` of a table `x : [N, C]` at an integer array `idx : [R, K]` lowers to: `stablehlo.gather` with
offset_dims `[2]`, collapsed_slice_dims `[0]`, start_index_map `[0]`, slice_sizes `[1, C]` and index_vector_dim 2
over the indices as `[R, K, 1]`. Result element `(t, j, k)` is `x` at row `idx[t, j, 0]`, read as a signed integer
and clamped into `[0, N − 1]`, and column `k`: the row axis is collapsed and takes the clamped start index, the
column axis is the one offset axis and takes the result's last coordinate.
-/

noncomputable section

namespace Cert.GatherRows

open Idealize.ShloMosaic Idealize.ShloMosaic.ValueIdx

variable {α : Type}

/-- Those dimension numbers for an operand `[N, C]`, start indices `[R, K, 1]` and result `[R, K, C]`; their
    conditions `wf` are decided on a program's literal shapes. -/
abbrev rowsDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE GATHER READ AT `(t, j, k)`: the operand at row `idx[t, j, 0]`, read signed and clamped into `[0, N − 1]`,
    and column `k`. -/
theorem gather_rows_apply {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (t : Fin R) (j : Fin K) (k : Fin C) :
    Host.gather (rowsDims N C R K wf) x idx (ix3 t j k)
      = x (ix2 ⟨min (idx (ix3 t j (0 : Fin 1))).toInt.toNat (N - 1), by omega⟩ k) := by
  unfold Host.gather
  congr 1
  funext a
  refine Fin.ext ?_
  match a with
  | ⟨0, _⟩ =>
    -- the row axis: collapsed, named by the start index map
    show (rowsDims N C R K wf).start (ix3 t j k) idx 0 + (rowsDims N C R K wf).batchCoord (ix3 t j k) 0
      + (rowsDims N C R K wf).offCoord (ix3 t j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R K wf).startIndexMap from List.mem_singleton.mpr rfl)]
    have hsi : (rowsDims N C R K wf).siIdx (ix3 t j k) ⟨List.idxOf (0 : Fin 2) (rowsDims N C R K wf).startIndexMap,
        List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: the one offset axis, off the start index map
    show (rowsDims N C R K wf).start (ix3 t j k) idx 1 + (rowsDims N C R K wf).batchCoord (ix3 t j k) 1
      + (rowsDims N C R K wf).offCoord (ix3 t j k) 1 = _
    have h10 : (1 : Fin 2) ≠ 0 := by decide
    rw [GatherDims.batchCoord_eq_zero _ _ _ List.not_mem_nil]
    unfold GatherDims.start
    rw [dif_neg (show ¬ (1 : Fin 2) ∈ (rowsDims N C R K wf).startIndexMap from
      fun h => h10 (List.mem_singleton.mp h))]
    unfold GatherDims.offCoord
    rw [dif_pos ((GatherDims.mem_sKept _ _).mpr
      ⟨fun h => h10 (List.mem_singleton.mp h), List.not_mem_nil⟩)]
    simp only [Nat.zero_add, Nat.add_zero]
    rfl

end Cert.GatherRows

end
-- ==== Proof.RefVal.lean ====
/-
  The reference's result, read at an index. With the index `x[r, s]` in `[1, 200]` the take's index `x[r, s] - 1` is not
  negative, so it is not wrapped; it lies in `[0, 199]`, so the in-range test holds and the fill value is not selected;
  and the gather reads the weight table's row `x[r, s] - 1`.
-/
import proofs.«428532_j28690381537578_2_alg».proof.Proof.RefRun
import proofs.«428532_j28690381537578_2_alg».proof.Proof.LibGatherRows
import Idealize.ShloMosaic.Lib.ValueIdx
import Idealize.ShloMosaic.Lib.Pipeline.Value
import Idealize.ShloMosaic.Lib.Affine
import Idealize.ShloMosaic.Lib.StableHlo.Predicate

noncomputable section

namespace Cert.ReferenceIdeal.RefRun

open Cert.ReferenceIdeal Cert.ReferenceIdeal.Gen Idealize.ShloMosaic Idealize.ShloMosaic.ValueIdx

variable {F : FTy → Type} [FloatOps F]

/-- An index word that names a class: in `[1, 200]`. -/
abbrev InRange (b : BitVec 32) : Prop := 1 ≤ b.toNat ∧ b.toNat ≤ 200

/-- For such a word `b - 1` is the number `b - 1`, read unsigned or signed. -/
theorem toNat_pred {b : BitVec 32} (h : InRange b) : (b - 1#32).toNat = b.toNat - 1 := by
  obtain ⟨h1, h2⟩ := h
  rw [BitVec.toNat_sub]
  show (2 ^ 32 - 1 + b.toNat) % 2 ^ 32 = _
  omega

theorem toInt_pred {b : BitVec 32} (h : InRange b) : (b - 1#32).toInt = ((b.toNat - 1 : ℕ) : Int) := by
  rw [StableHlo.Predicate.toInt_eq_toNat_of_lt (by rw [toNat_pred h]; have := h.2; omega), toNat_pred h]

/-- The take's index is not wrapped: it is `x - 1`. -/
theorem wrapped_apply (x : IVec S16384x200 32) (i : S16384x200.Idx) (h : InRange (x i)) :
    wrapped x i = x i - 1#32 := by
  have hc : ¬ IntOp.cmpi .slt (x i - 1#32) 0#32 = 1#1 := by
    rw [IntOp.cmpi_slt, toInt_pred h]
    show ¬ ((x i).toNat - 1 : ℕ) < (0 : Int)
    omega
  show Scalar.select (IntOp.cmpi .slt (x i - 1#32) 0#32) (x i - 1#32 + 200#32) (x i - 1#32) = _
  rw [eq_zero_of_ne_one hc, select_zero]

/-- The start index at `(r, s, z)` is the wrapped index at `(r, s)`. -/
theorem starts_apply (x : IVec S16384x200 32) (r : Fin 16384) (s : Fin 200) (z : Fin 1) :
    starts x (ix3 r s z) = wrapped x (ix2 r s) :=
  broadcastInDim_apply _ _ (wrapped x) (ix3 r s z) (ix2 r s) (fun a => match a with | ⟨0, _⟩ => rfl | ⟨1, _⟩ => rfl)

/-- The vector `and` and comparison at an index are the words'. -/
theorem andi_apply {s : Shape} (a b : IVec s 1) (i : s.Idx) : andi a b i = IntOp.andi (a i) (b i) := rfl
theorem cmpi_apply {s : Shape} {w : Nat} (p : CmpIPredicate) (a b : IVec s w) (i : s.Idx) :
    cmpi p a b i = IntOp.cmpi p (a i) (b i) := rfl

/-- The two broadcast bounds of the in-range test read their constants everywhere. -/
theorem lower_apply (i : S16384x200x1.Idx) :
    broadcastInDim S16384x200x1 ![] bcast_S_S16384x200x1 (constantI S_ 32 0#32) i = 0#32 := rfl
theorem upper_apply (i : S16384x200x1.Idx) :
    broadcastInDim S16384x200x1 ![0, 1, 2] bcast_S1x1x1_S16384x200x1_0_1_2
      (broadcastInDim S1x1x1 ![2] bcast_S1_S1x1x1_2 (constantI S1 32 199#32)) i = 199#32 := rfl

/-- A fold of `and` from 1 over ones is 1. -/
theorem foldl_andi_one {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

set_option maxRecDepth 8192 in
/-- With every index a class, the in-range test holds everywhere. -/
theorem inRange_apply (x : IVec S16384x200 32) (hx : ∀ i, InRange (x i)) (j : S16384x200.Idx) :
    inRange x j = 1#1 := by
  unfold inRange
  rw [Host.reduce_eq_foldl]
  refine foldl_andi_one _ (fun i3 => ?_) _
  obtain ⟨a, b, z, rfl⟩ : ∃ (a : Fin 16384) (b : Fin 200) (z : Fin 1), i3 = ix3 a b z := ⟨i3 0, i3 1, i3 2, eq_ix3 i3⟩
  have hi := hx (ix2 a b)
  rw [andi_apply, cmpi_apply, cmpi_apply, lower_apply, upper_apply, starts_apply, wrapped_apply x _ hi, IntOp.andi_eq_one, IntOp.cmpi_sge, IntOp.cmpi_sle, toInt_pred hi]
  have h199 : (199#32 : BitVec 32).toInt = 199 := by decide
  have h0 : (0#32 : BitVec 32).toInt = 0 := by decide
  rw [h199, h0]
  obtain ⟨h1, h2⟩ := hi
  omega

/-- The take's dimension numbers are the row gather's. -/
theorem dims_eq : gather_S200x1_S16384x200x1_S16384x200x1_2_0_n_n_0_2_11
    = Cert.GatherRows.rowsDims 200 1 16384 200 gather_S200x1_S16384x200x1_S16384x200x1_2_0_n_n_0_2_11_wf := rfl

/-- THE REFERENCE'S RESULT AT `(r, s, z)`: the weight table's row `x[r, s] - 1`. -/
theorem out_apply (x : IVec S16384x200 32) (w : FVec F S200x1 .f32) (hx : ∀ i, InRange (x i))
    (r : Fin 16384) (s : Fin 200) (z : Fin 1) :
    out x w (ix3 r s z) = w (ix2 (⟨min ((x (ix2 r s)).toNat - 1) 199, by omega⟩ : Fin 200) z) := by
  have hm : broadcastInDim S16384x200x1 ![0, 1] bcast_S16384x200_S16384x200x1_0_1 (inRange x) (ix3 r s z) = 1#1 :=
    (broadcastInDim_apply _ _ (inRange x) (ix3 r s z) (ix2 r s)
      (fun a => match a with | ⟨0, _⟩ => rfl | ⟨1, _⟩ => rfl)).trans (inRange_apply x hx _)
  unfold out
  rw [select_apply, hm, select_one, dims_eq, Cert.GatherRows.gather_rows_apply (by decide)]
  have e : (starts x (ix3 r s (0 : Fin 1))).toInt.toNat = (x (ix2 r s)).toNat - 1 := by
    rw [starts_apply, wrapped_apply x _ (hx _), toInt_pred (hx _), Int.toNat_natCast]
  refine congrArg (fun k : Fin 200 => w (ix2 k z)) (Fin.ext ?_)
  show min (starts x (ix3 r s (0 : Fin 1))).toInt.toNat (200 - 1) = min ((x (ix2 r s)).toNat - 1) 199
  rw [e]

end Cert.ReferenceIdeal.RefRun

end
-- ==== Proof.Bridge.lean ====
/-
  The two results are one function. At `(r, s, 0)` the kernel program's result is the weight row at class
  `x[r, s] - 1`, the row being the reshaped table: `W[x[r, s] - 1, 0]`; the reference's is the gather's row
  `x[r, s] - 1` of the table at column 0: the same entry.
-/
import proofs.«428532_j28690381537578_2_alg».proof.Proof.KArr
import proofs.«428532_j28690381537578_2_alg».proof.Proof.RefVal

noncomputable section

namespace Cert.Bridge

open Idealize.ShloMosaic Idealize.ShloMosaic.ValueIdx

/-- Under the index range the reference's result term is the kernel program's. -/
theorem out_eq (x : IVec Cert.KernelIdeal.S16384x200 32) (w : FVec Ideal Cert.KernelIdeal.S200x1 .f32)
    (hx : ∀ i, Cert.KernelIdeal.KVal.InRange (x i)) :
    Cert.ReferenceIdeal.RefRun.out (F := Ideal) x w = Cert.KernelIdeal.KVal.out x w := by
  funext j
  obtain ⟨r, s, z, rfl⟩ : ∃ (r : Fin 16384) (s : Fin 200) (z : Fin 1), j = ix3 r s z := ⟨j 0, j 1, j 2, eq_ix3 j⟩
  obtain rfl : z = 0 := Subsingleton.elim _ _
  rw [Cert.ReferenceIdeal.RefRun.out_apply x w hx r s 0]
  unfold Cert.KernelIdeal.KVal.out
  rw [shapeCast_apply _ _ (ix3 r s (0 : Fin 1)) (ix2 r s) (by
    rw [Shape.rowMajor_val_two, Shape.rowMajor_val_three]
    show r.val * 200 + s.val = (r.val * 200 + s.val) * 1 + 0
    omega)]
  unfold Cert.KernelIdeal.KVal.arrVal
  rw [shapeCast_apply _ _ (ix2 (0 : Fin 1) (Cert.KernelIdeal.Pay.clip (x (ix2 r s)))) (ix2 (Cert.KernelIdeal.Pay.clip (x (ix2 r s))) (0 : Fin 1)) (by
    rw [Shape.rowMajor_val_two, Shape.rowMajor_val_two]
    show (Cert.KernelIdeal.Pay.clip (x (ix2 r s))).val * 1 + 0 = 0 * 200 + (Cert.KernelIdeal.Pay.clip (x (ix2 r s))).val
    omega)]
  rfl

end Cert.Bridge

end
-- ==== Proof.lean ====
/-
  Equivalence over the extended reals of a one-hot "select and sum" kernel with a table gather.

  The kernel: for an index array `x : i32[16384, 200]` and a weight table `W : f32[200, 1]`, laid out as the row
  `w[0, k] = W[k, 0]`, each grid point takes 1024 rows of `x` and, sixteen rows at a time, stores
  `Σ_k [x[r, s] = k + 1] · w[0, k]` over the 200 classes `k`. The reference: `W[x - 1]` as jnp's take, which wraps a
  negative index once by the table's length and fills with NaN outside the table.

  The statement's precondition says every weight is finite and every index lies in `[1, 200]`. Under it exactly one
  class matches each index, the other terms are `0 · w = 0` on the extended reals, and the kernel's sum is
  `W[x[r, s] - 1, 0]`; the reference's index `x - 1` is in `[0, 199]`, neither wrapped nor filled, and its gather reads
  the same entry. Finiteness of the weights is not used: `0 · w = 0` and `1 · w = w` hold for every extended real.

  The three frames: the two kernel programs' are the generated frame certificates; the reference has no kernel, and its
  frame is its run with the result dropped. The ideal pass rewrote nothing, so `preserves` is `True`.
-/
import proofs.«428532_j28690381537578_2_alg».proof.Defs
import proofs.«428532_j28690381537578_2_alg».proof.Proof.Gen.Kernel
import proofs.«428532_j28690381537578_2_alg».proof.Proof.Gen.Kernel.Skeleton
import proofs.«428532_j28690381537578_2_alg».proof.Proof.Gen.Kernel.Loops
import proofs.«428532_j28690381537578_2_alg».proof.Proof.Gen.Kernel.Launch
import proofs.«428532_j28690381537578_2_alg».proof.Proof.Gen.Kernel.Points
import proofs.«428532_j28690381537578_2_alg».proof.Proof.Gen.Kernel.Frame
import proofs.«428532_j28690381537578_2_alg».proof.Proof.Gen.KernelIdeal
import proofs.«428532_j28690381537578_2_alg».proof.Proof.Gen.KernelIdeal.Skeleton
import proofs.«428532_j28690381537578_2_alg».proof.Proof.Gen.KernelIdeal.Loops
import proofs.«428532_j28690381537578_2_alg».proof.Proof.Gen.KernelIdeal.Launch
import proofs.«428532_j28690381537578_2_alg».proof.Proof.Gen.KernelIdeal.Points
import proofs.«428532_j28690381537578_2_alg».proof.Proof.Gen.KernelIdeal.Frame
import proofs.«428532_j28690381537578_2_alg».proof.Proof.Gen.ReferenceIdeal
import proofs.«428532_j28690381537578_2_alg».proof.Proof.Gen.Pre_finite_inputs
import proofs.«428532_j28690381537578_2_alg».proof.Proof.PreRange
import proofs.«428532_j28690381537578_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs run, and end with the same result array: the weight at class `x - 1`. -/
theorem algebraic : Cert.algebraic_KernelIdeal_ReferenceIdeal := by
  intro m ρ m' ρ' hpre hagree
  have hx : ∀ (c : Dev Cert.KernelIdeal.nD) i,
      Cert.KernelIdeal.KVal.InRange (m ((c.tc : Thread Cert.KernelIdeal.nD Cert.KernelIdeal.τ).loc Cert.KernelIdeal.main_arg0) i) :=
    fun c i => Cert.PreRange.toNat_range _ _ (hpre c) i
  refine ⟨fun c => Cert.KernelIdeal.KVal.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KVal.run m ρ hx, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Bridge.out_eq _ _ (hx c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
